-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S1x1 : Shape := ⟨2, ![1, 1]⟩
abbrev S256x1024 : Shape := ⟨2, ![256, 1024]⟩
abbrev S1024x1024 : Shape := ⟨2, ![1024, 1024]⟩
abbrev S1 : Shape := ⟨1, ![1]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .bf16⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1x1, .f32⟩
  | .local _ .vmem, ⟨9, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v21 : BitVec 1 := Scalar.cmpi .eq arg0 c7_i32
  let arg1 : BitVec 32 := BitVec.ofNat 32 (i 1).val
  let c7_i32_11 : BitVec 32 := 7#32
  let v22 : BitVec 1 := Scalar.cmpi .eq arg1 c7_i32_11
  let v23 : BitVec 1 := Scalar.andi v21 v22
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1024x256_S1024x256 : S1024x256.ShapeCasts S1024x256
  transposes_S1024x256_p1_0_S256x1024 : S1024x256.Transposes [1, 0] S256x1024
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S8192x8192_S_d0_1 : S8192x8192.ReducesTo [0, 1] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.KB.Body0.lean ====
/-
  Region 0 of the program: the row-normalising kernel on a grid of 8 points. Point `t` reads rows
  1024·t … 1024·t+1023 of the input (one block of 1024 × 256), divides every entry of a row by the larger of the
  row's Euclidean norm and a fixed positive constant, and stores the block, narrowed to bf16, into the same rows
  of the result. Stated here, at any contents `V` of the core's buffers at the region's entry: what each window's
  staging buffer holds after the body at each point, and that the body run at a point leaves exactly that.
-/
import proofs.«131471_j62929860821405_1_alg».proof.Proof.Gen.Kernel.Launch
import proofs.«131471_j62929860821405_1_alg».proof.Proof.Gen.Kernel.Skeleton
import proofs.«131471_j62929860821405_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: a whole 1024 × 256 block. -/
abbrev r0 : Rect S1024x256 := Rect.unit (s := S1024x256) ![0, 0] S1024x256.size inb_S1024x256_S1024x256_0_0

/-- What the body leaves in the result window's buffer, from the input block: its one store as a piece. -/
def out0_1 (x0 : Vec F S1024x256 .f32) : Vec F S1024x256 .bf16 :=
  View.canon [⟨r0, k0_pay1 (View.ld x0 r0)⟩]

/-- The one store covers the whole block. -/
theorem cover0_1 (p0 : Vec F S1024x256 .bf16) (y : S1024x256.Idx) :
    ∃ pc ∈ ([⟨r0, p0⟩] : List (View.Piece (Elt F) S1024x256 .bf16)), y ∈ pc.1.set :=
  View.cover_of_tiled [⟨r0, p0⟩] S1024x256.size (by rfl) y

set_option maxHeartbeats 1000000 in
/-- The body on whole staging memrefs, the input's at contents `x0` and the result's at anything, runs to the
    continuation holding the input's as it was and the result's at `out0_1 x0`. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the result's at `out0_1` of it; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KB.Body1.lean ====
/-
  Region 1 of the program: the kernel that sums the squares of all pairwise inner products, on a grid of 8 × 8
  points in row-major order. Point (i, j) reads row blocks i and j of the normalised array (1024 × 256 each),
  forms their 1024 × 1024 matrix of inner products, squares it, sums it to one number, and adds that number to a
  1 × 1 scratch cell that is reset to zero at the first point and carried from point to point; the last point
  copies the cell to the 1 × 1 result. Stated here, at any contents `V` of the core's buffers at the region's
  entry: the running sum after each point, the proof data, and the body obligation.
-/
import proofs.«131471_j62929860821405_1_alg».proof.Proof.Gen.Kernel.Launch
import proofs.«131471_j62929860821405_1_alg».proof.Proof.Gen.Kernel.Skeleton
import proofs.«131471_j62929860821405_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The offsets of every access of the body are zero. -/
theorem offsets1_zero : (![0, 0] : Fin 2 → Nat) = fun _ => 0 := funext fun a => by fin_cases a <;> rfl

/-- The first branch's condition, from the grid coordinates: both are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition: both are seven. -/
abbrev cond1_1 (i : grid1.Coords) : Prop := k1_cond2 i = 1#1

set_option maxHeartbeats 1000000 in
/-- The first point's body: the first branch is taken, the second not. On whole memrefs — the two input blocks at
    `x0`, `x1`, the result's buffer at `xi`, the scratch cell at anything — it runs to the continuation holding the
    first three as they were and the scratch cell at the point's term added to the zero it has just stored. -/
theorem sound_kernel1_A (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1x1 .f32) (harg4 : arg4.IsWhole) (arg5 : Memref sig .tc .vmem S1x1 .f32) (harg5 : arg5.IsWhole)
    (hc0 : cond1_0 i) (hc1 : ¬cond1_1 i)
    (x0 x1 : Vec F S1024x256 .bf16) (xi : Vec F S1x1 .f32) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
            ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__gram_sumsq_kernel i arg2 harg2 arg3 harg3 arg4 harg4 arg5 harg5) K := by
  simp only [cc1__gram_sumsq_kernel_eq_skeleton]; unfold cc1__gram_sumsq_kernel_skel
  unfold owns
  iintro ⟨⟨%f0, %hf0, H0⟩, ⟨%f1, %hf1, H1⟩, ⟨%fi, %hfi, Hi⟩, ⟨%ds, %fs, -, HS⟩, Hk⟩
  subst hf0; subst hf1; subst hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  rw [View.read_writes_eq_canon _ _ _ (fun y => ⟨_, List.mem_cons.mpr (Or.inl rfl), View.mem_set_unit_zero offsets1_zero inb_S1x1_S1x1_0_0 y⟩),
    View.canon_cons_unit_zero offsets1_zero]
  sl_unfold_words
  simp only [View.readAt_eq_ld, View.ld_unit_zero (S := S1024x256) offsets1_zero, View.readCov_unit_zero (S := S1x1) _ offsets1_zero]

set_option maxHeartbeats 1000000 in
/-- A middle point's body: neither branch is taken. On whole memrefs — the two input blocks at `x0`, `x1`, the
    result's buffer at `xi`, the scratch cell at `xs` — it runs to the continuation holding the first three as they
    were and the scratch cell at the point's term added to `xs`. -/
theorem sound_kernel1_B (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1x1 .f32) (harg4 : arg4.IsWhole) (arg5 : Memref sig .tc .vmem S1x1 .f32) (harg5 : arg5.IsWhole)
    (hc0 : ¬cond1_0 i) (hc1 : ¬cond1_1 i)
    (x0 x1 : Vec F S1024x256 .bf16) (xi xs : Vec F S1x1 .f32) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
            ∗ owns (c : Thread nD τ) arg4 fullShare xi ∗ owns (c : Thread nD τ) arg5 fullShare (k1_pay2 x0 x1 xs)) -∗ K ⟨⟩))
      ⊢ wp frame (wpE (defs₀ (F := F)) Variants.none c none) E (cc1__gram_sumsq_kernel i arg2 harg2 arg3 harg3 arg4 harg4 arg5 harg5) K := by
  simp only [cc1__gram_sumsq_kernel_eq_skeleton]; unfold cc1__gram_sumsq_kernel_skel
  unfold owns
  iintro ⟨⟨%f0, %hf0, H0⟩, ⟨%f1, %hf1, H1⟩, ⟨%fi, %hfi, Hi⟩, ⟨%fs, %hfs, HS⟩, Hk⟩
  subst hf0; subst hf1; subst hfi; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  rw [View.read_writes_eq_canon _ _ _ (fun y => ⟨_, List.mem_singleton_self _, View.mem_set_unit_zero offsets1_zero inb_S1x1_S1x1_0_0 y⟩),
    View.canon_unit_zero offsets1_zero]
  simp only [View.readAt_eq_ld, View.ld_unit_zero (S := S1024x256) offsets1_zero, View.ld_unit_zero (S := S1x1) offsets1_zero]

set_option maxHeartbeats 1000000 in
/-- The last point's body: the second branch is taken, the first not. On whole memrefs — the two input blocks at
    `x0`, `x1`, the result's buffer at anything, the scratch cell at `xs` — it runs to the continuation holding the
    input blocks as they were and both the scratch cell and the result's buffer at the point's term added to `xs`. -/
theorem sound_kernel1_C (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1x1 .f32) (harg4 : arg4.IsWhole) (arg5 : Memref sig .tc .vmem S1x1 .f32) (harg5 : arg5.IsWhole)
    (hc0 : ¬cond1_0 i) (hc1 : cond1_1 i)
    (x0 x1 : Vec F S1024x256 .bf16) (xs : Vec F S1x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__gram_sumsq_kernel i arg2 harg2 arg3 harg3 arg4 harg4 arg5 harg5) K := by
  simp only [cc1__gram_sumsq_kernel_eq_skeleton]; unfold cc1__gram_sumsq_kernel_skel
  unfold owns
  iintro ⟨⟨%f0, %hf0, H0⟩, ⟨%f1, %hf1, H1⟩, ⟨%di, %fi, -, Hi⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists _; isplitr
    swap; · iexact Hi
    ipureintro
    rw [View.read_writes_eq_canon _ _ _ (fun y => ⟨_, List.mem_singleton_self _, View.mem_set_unit_zero offsets1_zero inb_S1x1_S1x1_0_0 y⟩),
      View.canon_unit_zero offsets1_zero]
    sl_unfold_words
    simp only [View.readAt_eq_ld, View.ld_unit_zero (S := S1024x256) offsets1_zero, View.ld_unit_zero (S := S1x1) offsets1_zero,
      View.readCov_unit_zero (S := S1x1) _ offsets1_zero]
  iexists _; isplitr
  swap; · iexact HS
  ipureintro
  sl_unfold_words
  rw [View.read_writes_eq_canon _ _ _ (fun y => ⟨_, List.mem_singleton_self _, View.mem_set_unit_zero offsets1_zero inb_S1x1_S1x1_0_0 y⟩),
    View.canon_unit_zero offsets1_zero]
  simp only [View.readAt_eq_ld, View.ld_unit_zero (S := S1024x256) offsets1_zero, View.ld_unit_zero (S := S1x1) offsets1_zero]

/-- The first branch is taken at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The second branch is taken at the last point only. -/
theorem hcond1_1 : ∀ t : Fin cfg1.N, cond1_1 (grid1.coords t) ↔ t.val = 63 :=
  (by decide +kernel : ∀ t : Fin grid1.N, cond1_1 (grid1.coords t) ↔ t.val = 63)

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the second branch is not taken the body stores nothing into the result's buffer, -/
theorem idleAt1_2 : ∀ t : Fin cfg1.N, ¬cond1_1 (grid1.coords t) → cfg1.idle 2 (grid1.coords t) = true := by decide +kernel
/-- and the pipeline does not write it back there; -/
theorem noFlush1_2 : ∀ t : Fin cfg1.N, ¬cond1_1 (grid1.coords t) → (cfg1.win 2).flush t = false := by decide +kernel
/-- where it is taken, the body stores into it. -/
theorem liveAt1_2 : ∀ t : Fin cfg1.N, cond1_1 (grid1.coords t) → cfg1.idle 2 (grid1.coords t) = false := by decide +kernel

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE RUNNING SUM: what the scratch cell holds after the body at position `n` — at the first point the point's
    own term added to the zero just stored, afterwards the point's term added to what the point before left. -/
def acc1 (c : Dev nD) : (n : ℕ) → n < cfg1.N → Vec F S1x1 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

/-- The running sum at the first point: the point's term added to zero. -/
theorem acc1_zero (c : Dev nD) (t : Fin cfg1.N) (hz : t.val = 0) :
    acc1 V c t.val t.isLt = k1_pay2 (iblk1 V c 0 t) (iblk1 V c 1 t) (k1_pay1 (F := F)) := by
  obtain ⟨n, hn⟩ := t
  cases n with
  | zero => rfl
  | succ n => exact absurd hz (Nat.succ_ne_zero _)

/-- The running sum at a later point: the point's term added to the running sum at the point before. -/
theorem acc1_pos (c : Dev nD) (t : Fin cfg1.N) (hz : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl hz
  | succ n => rfl

/-- The scratch cell the kernel carries between points, as a memref. -/
abbrev scM1 : Memref sig .tc .vmem S1x1 .f32 := Memref.whole cc1_scratch0

/-- The scoped buffers of the core that region 1 does not stage — region 0's four staging buffers, each whole at
    some contents, and the scratch cell as `S` describes it — beside the generator register at some state. -/
def rest1 (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ S) ∗ (∃ r, prngReg c r))

/-- What the launch hands the region, with the scratch cell as a memref owned at some contents. -/
theorem PhiA1_eq (c : Dev nD) :
    (Pipeline.ΦA spec1 c : sProp 𝕄) = rest1 (F := F) c (iprop(∃ d, owns (c : Thread nD τ) scM1 fullShare d)) := by
  unfold Pipeline.ΦA rest1; rw [scopedRest1_eq]; simp only [scM1, owns_whole]; try rfl

/-- The region's invariant before position `n`: before the first point every scoped buffer outside the staging
    buffers at anything; afterwards the scratch cell at the running sum the point before left, the other scoped
    buffers at anything; the generator register at some state throughout. -/
def Phi1 (c : Dev nD) : (n : ℕ) → n ≤ cfg1.N → sProp 𝕄
  | 0, _ => Pipeline.ΦA spec1 c
  | n + 1, hn => rest1 c (owns (c : Thread nD τ) scM1 fullShare (acc1 V c n hn))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = rest1 c (owns (c : Thread nD τ) scM1 fullShare (acc1 V c n hn)) := rfl

theorem Phi1_pos (c : Dev nD) (n : ℕ) (h : n ≤ cfg1.N) (hz : n ≠ 0) :
    Phi1 V c n h = rest1 c (owns (c : Thread nD τ) scM1 fullShare (acc1 V c (n - 1) (by omega))) := by
  cases n with
  | zero => exact absurd rfl hz
  | succ n => rfl

/-- The proof data of pipeline 1 on core `c`. Both input windows read the one normalised array, each holding half
    of its share; the result window's buffer is consulted at the last point only, where it holds the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input window's current staging buffer holds its block at every point, fetched there or not: unfetched,
    the block index has not moved since the fetch. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input buffers hold their blocks; the point's position says which of the three
    control cases it is in. At the first point the invariant hands the scratch cell over at anything and the body
    leaves the first term of the running sum there; at a later point it hands it over at the running sum so far
    and the body leaves the next. The result's buffer is handed back as found at every point but the last, where
    the body copies the running sum into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h1 : t.val = 63
  · -- the last point
    have h0 : ¬t.val = 0 := by omega
    have hc0 : ¬cond1_0 (grid1.coords t) := fun h => h0 ((hcond1_0 t).mp h)
    have hc1 : cond1_1 (grid1.coords t) := (hcond1_1 t).mpr h1
    rw [show (dat1 V c).leavesExact 2 t = owns (c : Thread nD τ) (st1_2 t) fullShare ((dat1 V c).after 2 t) from by
      unfold Dat.leavesExact; rw [liveAt1_2 t hc1], after1_2]
    rw [Phi1_castSucc V c t, Phi1_pos V c _ _ h0, acc1_pos V c t h0]
    unfold rest1
    iintro ⟨⟨⟨HA, HB, HC, HD, HS⟩, Hg⟩, Ho, ⟨%d0, H0⟩, ⟨%d1, H1⟩, ⟨%d2, H2⟩⟩
    iapply (sound_kernel1_C c Set.univ (grid1.coords t) _ _ _ _ _ _ _ _ hc0 hc1 (iblk1 V c 0 t) (iblk1 V c 1 t)
      (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HA HB HC HD HS Hg]
    · isplitl [HA HB HC HD HS]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 2 t (idleAt1_2 t hc1) (noFlush1_2 t hc1)]
    by_cases h0 : t.val = 0
    · -- the first point
      have hc0 : cond1_0 (grid1.coords t) := (hcond1_0 t).mpr h0
      rw [Phi1_castSucc V c t, Phi1_zero V c _ _ h0, PhiA1_eq, acc1_zero V c t h0]
      unfold rest1
      iintro ⟨⟨⟨HA, HB, HC, HD, HS⟩, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2
    · -- a middle point
      have hc0 : ¬cond1_0 (grid1.coords t) := fun h => h0 ((hcond1_0 t).mp h)
      rw [Phi1_castSucc V c t, Phi1_pos V c _ _ h0, acc1_pos V c t h0]
      unfold rest1
      iintro ⟨⟨⟨HA, HB, HC, HD, HS⟩, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _
        (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back, the scratch cell's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  unfold rest1
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

end

end Cert.Kernel.Hand

end
-- ==== Proof.KB.Run.lean ====
/-
  The run of the whole program: two kernel regions, then nine host operations on scalars.

  Between the items the core's unscoped buffers are held whole at a valuation: at launch the memory `m`; after
  region 0 the normalised array at what the region's write-backs leave, every other buffer unchanged; after region 1
  the 1 × 1 result likewise; after the host operations their composed values. Region 1 hands ONE array to two of its
  windows, so at its entry the array's full share is dealt into two halves, one per window, and joined again at
  its exit (both windows are inputs: the array is unchanged). Read off the last valuation: the argument array ends
  as launched, and the result buffer holds the closing affine step applied to what region 1 left.
-/
import proofs.«131471_j62929860821405_1_alg».proof.Proof.KB.Body0
import proofs.«131471_j62929860821405_1_alg».proof.Proof.KB.Body1
import proofs.«131471_j62929860821405_1_alg».proof.Proof.Gen.Kernel.Regions
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m (c, b)
/-- The same read at the TensorCore's references. -/
abbrev Vr0 : (c : Dev nD) → (b : Ref sig .tc) → Buf (Elt F) ((c : Thread nD τ).loc b) := fun c b => W0 m c b
/-- At region 0's exit (region 1's entry): its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- At region 1's exit: the 1 × 1 result at what the pipeline leaves, every other buffer as entered. -/
def W2 (c : Dev nD) : Valuation τ sig (Elt F) :=
  Function.update (W1 m c) (Proc.devRef .tc main_v1) ((dat1 (Vr1 m) c).arrAt 2 cfg1.N)
abbrev Vr2 : (c : Dev nD) → (b : Ref sig .tc) → Buf (Elt F) ((c : Thread nD τ).loc b) := fun c b => W2 m c b
theorem W2_main_v1 (c : Dev nD) : Vr2 m c main_v1 = (dat1 (Vr1 m) c).arrAt 2 cfg1.N := by
  unfold Vr2 W2; exact Function.update_self ..
theorem W2_of_ne (c : Dev nD) (b : Ref sig .tc) (hb : b ≠ main_v1) : Vr2 m c b = Vr1 m c b := by
  unfold Vr2 W2
  exact Function.update_of_ne (StableHlo.devRef_ne_of_ne hb : (Proc.devRef .tc b : DevRef τ sig) ≠ Proc.devRef .tc main_v1) _ _
/-- After the host operations. -/
abbrev W3 : Dev nD → Valuation τ sig (Elt F) := fun c => StableHlo.after hostOps2 (W2 m c)

/-! ## The proof data family and the thread state -/

/-- Every pipeline's proof data, each at its region's entry contents — a literal match on the pipeline's index. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing
    nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W0`, left at `W1`. Its two arrays are
    distinct buffers: they are split out of the unscoped buffers at the entry and put back at the exit contents;
    the generator register goes into the region's invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: one array behind two windows -/

/-- Region 1's arrays, window by window: the normalised array at the left half of its share for window 0 and at the
    right half for window 1, the 1 × 1 result at the full share. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Pipeline.Dat.arrays
  rw [bigSep_W1, (arr_whole1 0).set_eq_univ, (arr_whole1 2).set_eq_univ]
  rfl

/-- The buffers behind region 1's arrays are the normalised array and the 1 × 1 result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- ENTRY: the unscoped buffers at region 1's entry contents are its arrays at the proof data's entry contents — the
    normalised array's share dealt in two — and the unscoped rest. -/
theorem entry1 (c : Dev nD) :
    (StableHlo.held (c : Thread nD τ) (Pipeline.ucRefs τ sig) (W1 m c) : sProp 𝕄)
      ⊢ iprop((pdats m 1 c).arrays ((pdats m 1 c).arrAt · 0) ∗ Pipeline.unscopedRest spec1 c (Vr1 m c)) := by
  rw [← Pipeline.unscopedBufs_held (Ix := Unit) (Name := ℕ) (U := UR sig nD τ) (Lvl := ℕ) c (W1 m c),
    Pipeline.PerCore.unscopedBufs_split₀ (fun _ : Dev nD => cfgs) 1 c winFacts₀1.arr_unscoped (Vr1 m c)]
  refine sep_mono ?_ .rfl
  show (Pipeline.arrBufs spec1 c (Vr1 m c) : sProp 𝕄) ⊢ _
  rw [show (pdats m 1 c) = dat1 (Vr1 m) c from rfl, arrays1_eq, arrBufs1_eq]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- Both input windows leave the normalised array as they found it. -/
theorem arr1_in0 (c : Dev nD) : (dat1 (Vr1 m) c).arrAt 0 cfg1.N = Vr2 m c main_v0 :=
  ((dat1 (Vr1 m) c).arrAt_in 0 rfl _).trans ((A_eq1 (Vr1 m) c 0).trans (W2_of_ne m c main_v0 (by decide)).symm)
theorem arr1_in1 (c : Dev nD) : (dat1 (Vr1 m) c).arrAt 1 cfg1.N = Vr2 m c main_v0 :=
  ((dat1 (Vr1 m) c).arrAt_in 1 rfl _).trans ((A_eq1 (Vr1 m) c 1).trans (W2_of_ne m c main_v0 (by decide)).symm)

/-- EXIT: region 1's arrays at their final contents — the two halves of the normalised array joined — and the
    unscoped rest are the unscoped buffers at the exit contents. -/
theorem exit1 (c : Dev nD) :
    iprop((pdats m 1 c).arrays ((pdats m 1 c).arrAt · cfg1.N) ∗ Pipeline.unscopedRest spec1 c (Vr1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.PerCore.unscopedBufs_split₀ (fun _ : Dev nD => cfgs) 1 c winFacts₀1.arr_unscoped (Vr2 m c)]
  refine sep_mono ?_ (Entails.of_eq ?_)
  · show _ ⊢ (Pipeline.arrBufs spec1 c (Vr2 m c) : sProp 𝕄)
    rw [show (pdats m 1 c) = dat1 (Vr1 m) c from rfl, arrays1_eq, arrBufs1_eq, arr1_in0, arr1_in1, ← W2_main_v1]
    iintro ⟨Hl, Hr, H1⟩
    isplitl [Hl Hr]
    · iapply (pointsTo_share (PosShare.mem_left_op_right fullShare)).2
      isplitl [Hl]; · iexact Hl
      iexact Hr
    iexact H1
  · unfold Pipeline.unscopedRest
    exact bigSep_congr fun b hb => by
      rw [W2_of_ne m c b fun e => (Finset.mem_sdiff.mp hb).2 (Finset.mem_image.mpr ⟨2, Finset.mem_univ _, e ▸ rfl⟩)]

set_option backward.isDefEq.respectTransparency.types false in
/-- REGION 1 over the thread state: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## @main as segments, and the launch -/

/-- @main's three items in order: the two regions, then the host operations from region 1's exit contents. -/
abbrev segs : List (Pipeline.Seg (pcfgs (F := F)) adm (pdats m) () defs₀ 𝒱₀ L lv) :=
  [ .region (reg0 m),
    .region (reg1 m),
    .host (hseg hostOps2 hostOps2_sub hostOps2_fresh (W2 m)) ]
theorem main_run (c : Dev nD) : main (F := F) c = Pipeline.Seg.run (segs m) := (main_chain c).trans (by chain_rfl)

/-- The last thread state without the `owes`: every unscoped buffer at the last valuation, the generator register at
    some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN. From any memory with zero counters every weakly fair execution of @main on the TensorCores terminates,
    nothing faulting, and in every final state every unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KB.Final.lean ====
/-
  What the run leaves, read off the last valuation: the argument array as launched (no item writes it: region 0
  reads it through an input window, region 1 and the host operations bypass it), and the result buffer at the closing
  affine step — subtract the row count, divide by row count squared minus row count — applied to the 1 × 1 array region 1
  left.
-/
import proofs.«131471_j62929860821405_1_alg».proof.Proof.KB.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the regions, as one function of the 1 × 1 array they read. -/
def tailOf (s : Vec F S1x1 .f32) : FVec F S_ .f32 :=
  Host.divf (subf (shapeCast S_ s shapeCasts_S1x1_S_) (constant S_ .f32 0x46000000#32))
    (subf (mulf (constant S_ .f32 0x46000000#32) (constant S_ .f32 0x46000000#32)) (constant S_ .f32 0x46000000#32))

/-- The argument array reaches the end as launched. -/
theorem W3_main_arg0 (c : Dev nD) : W3 m c (Proc.devRef .tc main_arg0) = m ((c : Thread nD τ).loc main_arg0) :=
  (StableHlo.after_of_writes_sub hostOps2 (W2 m c) hostOps2_writes (by decide : main_arg0 ∉ hostOps2_W)).trans <|
    (W2_of_ne m c main_arg0 (by decide)).trans <| (W1_arr m c 0).trans <|
      ((dat0 (Vr0 m) c).arrAt_in 0 rfl _).trans (A_eq0 (Vr0 m) c 0)

/-- The result buffer holds the host operations' value of what region 1 left. -/
theorem W3_main_v6 (c : Dev nD) : W3 m c (Proc.devRef .tc main_v6) = tailOf (Vr2 m c main_v1) := by
  show StableHlo.after hostOps2 (W2 m c) (Proc.devRef .tc main_v6) = _
  after_results
  rfl

/-- The normalised array region 1 reads is what region 0 left. -/
theorem Vr1_main_v0 (c : Dev nD) : Vr1 m c main_v0 = (dat0 (Vr0 m) c).arrAt 1 cfg0.N := W1_arr m c 1

/-- THE FRAME, at any instance: every weakly fair execution terminates, nothing faults, the argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_all m ρ)

/-- THE RUN WITH ITS RESULT NAMED, at any instance. -/
theorem run_value : θ_run defs (onTc (τ := τ) (main (F := F))) ⟨m, fun _ => 0, ρ⟩ (fun r => ∀ c : Dev nD,
      r.2.mem ((c.tc : Thread nD τ).loc main_v6) = tailOf (Vr2 m c main_v1)
      ∧ r.2.mem ((c.tc : Thread nD τ).loc main_arg0) = m ((c.tc : Thread nD τ).loc main_arg0)) :=
  (θ_run defs _ _).mono (fun _ h c => ⟨(h c _ (mem_uc main_v6 (by decide))).trans (W3_main_v6 m c),
    (h c _ (mem_uc main_arg0 (by decide))).trans (W3_main_arg0 m c)⟩) (run_all m ρ)

end Cert.Kernel.Hand

end
-- ==== Proof.KI.Body0.lean ====
/-
  Region 0 of the program: the row-normalising kernel on a grid of 8 points. Point `t` reads rows
  1024·t … 1024·t+1023 of the input (one block of 1024 × 256), divides every entry of a row by the larger of the
  row's Euclidean norm and a fixed positive constant, and stores the block, narrowed to bf16, into the same rows
  of the result. Stated here, at any contents `V` of the core's buffers at the region's entry: what each window's
  staging buffer holds after the body at each point, and that the body run at a point leaves exactly that.
-/
import proofs.«131471_j62929860821405_1_alg».proof.Proof.Gen.KernelIdeal.Launch
import proofs.«131471_j62929860821405_1_alg».proof.Proof.Gen.KernelIdeal.Skeleton
import proofs.«131471_j62929860821405_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: a whole 1024 × 256 block. -/
abbrev r0 : Rect S1024x256 := Rect.unit (s := S1024x256) ![0, 0] S1024x256.size inb_S1024x256_S1024x256_0_0

/-- What the body leaves in the result window's buffer, from the input block: its one store as a piece. -/
def out0_1 (x0 : Vec F S1024x256 .f32) : Vec F S1024x256 .bf16 :=
  View.canon [⟨r0, k0_pay1 (View.ld x0 r0)⟩]

/-- The one store covers the whole block. -/
theorem cover0_1 (p0 : Vec F S1024x256 .bf16) (y : S1024x256.Idx) :
    ∃ pc ∈ ([⟨r0, p0⟩] : List (View.Piece (Elt F) S1024x256 .bf16)), y ∈ pc.1.set :=
  View.cover_of_tiled [⟨r0, p0⟩] S1024x256.size (by rfl) y

set_option maxHeartbeats 1000000 in
/-- The body on whole staging memrefs, the input's at contents `x0` and the result's at anything, runs to the
    continuation holding the input's as it was and the result's at `out0_1 x0`. -/
theorem sound_kernel0 (c : Dev nD) (E : Set ℕ) (i : grid0.Coords) (arg1 : Memref sig .tc .vmem S1024x256 .f32) (harg1 : arg1.IsWhole) (arg2 : Memref sig .tc .vmem S1024x256 .bf16) (harg2 : arg2.IsWhole)
    (x0 : Vec F S1024x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the result's at `out0_1` of it; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Body1.lean ====
/-
  Region 1 of the program: the kernel that sums the squares of all pairwise inner products, on a grid of 8 × 8
  points in row-major order. Point (i, j) reads row blocks i and j of the normalised array (1024 × 256 each),
  forms their 1024 × 1024 matrix of inner products, squares it, sums it to one number, and adds that number to a
  1 × 1 scratch cell that is reset to zero at the first point and carried from point to point; the last point
  copies the cell to the 1 × 1 result. Stated here, at any contents `V` of the core's buffers at the region's
  entry: the running sum after each point, the proof data, and the body obligation.
-/
import proofs.«131471_j62929860821405_1_alg».proof.Proof.Gen.KernelIdeal.Launch
import proofs.«131471_j62929860821405_1_alg».proof.Proof.Gen.KernelIdeal.Skeleton
import proofs.«131471_j62929860821405_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The offsets of every access of the body are zero. -/
theorem offsets1_zero : (![0, 0] : Fin 2 → Nat) = fun _ => 0 := funext fun a => by fin_cases a <;> rfl

/-- The first branch's condition, from the grid coordinates: both are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition: both are seven. -/
abbrev cond1_1 (i : grid1.Coords) : Prop := k1_cond2 i = 1#1

set_option maxHeartbeats 1000000 in
/-- The first point's body: the first branch is taken, the second not. On whole memrefs — the two input blocks at
    `x0`, `x1`, the result's buffer at `xi`, the scratch cell at anything — it runs to the continuation holding the
    first three as they were and the scratch cell at the point's term added to the zero it has just stored. -/
theorem sound_kernel1_A (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1x1 .f32) (harg4 : arg4.IsWhole) (arg5 : Memref sig .tc .vmem S1x1 .f32) (harg5 : arg5.IsWhole)
    (hc0 : cond1_0 i) (hc1 : ¬cond1_1 i)
    (x0 x1 : Vec F S1024x256 .bf16) (xi : Vec F S1x1 .f32) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
            ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__gram_sumsq_kernel i arg2 harg2 arg3 harg3 arg4 harg4 arg5 harg5) K := by
  simp only [cc1__gram_sumsq_kernel_eq_skeleton]; unfold cc1__gram_sumsq_kernel_skel
  unfold owns
  iintro ⟨⟨%f0, %hf0, H0⟩, ⟨%f1, %hf1, H1⟩, ⟨%fi, %hfi, Hi⟩, ⟨%ds, %fs, -, HS⟩, Hk⟩
  subst hf0; subst hf1; subst hfi
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  rw [View.read_writes_eq_canon _ _ _ (fun y => ⟨_, List.mem_cons.mpr (Or.inl rfl), View.mem_set_unit_zero offsets1_zero inb_S1x1_S1x1_0_0 y⟩),
    View.canon_cons_unit_zero offsets1_zero]
  sl_unfold_words
  simp only [View.readAt_eq_ld, View.ld_unit_zero (S := S1024x256) offsets1_zero, View.readCov_unit_zero (S := S1x1) _ offsets1_zero]

set_option maxHeartbeats 1000000 in
/-- A middle point's body: neither branch is taken. On whole memrefs — the two input blocks at `x0`, `x1`, the
    result's buffer at `xi`, the scratch cell at `xs` — it runs to the continuation holding the first three as they
    were and the scratch cell at the point's term added to `xs`. -/
theorem sound_kernel1_B (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1x1 .f32) (harg4 : arg4.IsWhole) (arg5 : Memref sig .tc .vmem S1x1 .f32) (harg5 : arg5.IsWhole)
    (hc0 : ¬cond1_0 i) (hc1 : ¬cond1_1 i)
    (x0 x1 : Vec F S1024x256 .bf16) (xi xs : Vec F S1x1 .f32) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
            ∗ owns (c : Thread nD τ) arg4 fullShare xi ∗ owns (c : Thread nD τ) arg5 fullShare (k1_pay2 x0 x1 xs)) -∗ K ⟨⟩))
      ⊢ wp frame (wpE (defs₀ (F := F)) Variants.none c none) E (cc1__gram_sumsq_kernel i arg2 harg2 arg3 harg3 arg4 harg4 arg5 harg5) K := by
  simp only [cc1__gram_sumsq_kernel_eq_skeleton]; unfold cc1__gram_sumsq_kernel_skel
  unfold owns
  iintro ⟨⟨%f0, %hf0, H0⟩, ⟨%f1, %hf1, H1⟩, ⟨%fi, %hfi, Hi⟩, ⟨%fs, %hfs, HS⟩, Hk⟩
  subst hf0; subst hf1; subst hfi; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists fi; isplitr; · ipureintro; rfl
    iexact Hi
  iexists _; isplitr
  swap; · iexact HS
  ipureintro
  rw [View.read_writes_eq_canon _ _ _ (fun y => ⟨_, List.mem_singleton_self _, View.mem_set_unit_zero offsets1_zero inb_S1x1_S1x1_0_0 y⟩),
    View.canon_unit_zero offsets1_zero]
  simp only [View.readAt_eq_ld, View.ld_unit_zero (S := S1024x256) offsets1_zero, View.ld_unit_zero (S := S1x1) offsets1_zero]

set_option maxHeartbeats 1000000 in
/-- The last point's body: the second branch is taken, the first not. On whole memrefs — the two input blocks at
    `x0`, `x1`, the result's buffer at anything, the scratch cell at `xs` — it runs to the continuation holding the
    input blocks as they were and both the scratch cell and the result's buffer at the point's term added to `xs`. -/
theorem sound_kernel1_C (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1x1 .f32) (harg4 : arg4.IsWhole) (arg5 : Memref sig .tc .vmem S1x1 .f32) (harg5 : arg5.IsWhole)
    (hc0 : ¬cond1_0 i) (hc1 : cond1_1 i)
    (x0 x1 : Vec F S1024x256 .bf16) (xs : Vec F S1x1 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__gram_sumsq_kernel i arg2 harg2 arg3 harg3 arg4 harg4 arg5 harg5) K := by
  simp only [cc1__gram_sumsq_kernel_eq_skeleton]; unfold cc1__gram_sumsq_kernel_skel
  unfold owns
  iintro ⟨⟨%f0, %hf0, H0⟩, ⟨%f1, %hf1, H1⟩, ⟨%di, %fi, -, Hi⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [Hi]
  · iexists _; isplitr
    swap; · iexact Hi
    ipureintro
    rw [View.read_writes_eq_canon _ _ _ (fun y => ⟨_, List.mem_singleton_self _, View.mem_set_unit_zero offsets1_zero inb_S1x1_S1x1_0_0 y⟩),
      View.canon_unit_zero offsets1_zero]
    sl_unfold_words
    simp only [View.readAt_eq_ld, View.ld_unit_zero (S := S1024x256) offsets1_zero, View.ld_unit_zero (S := S1x1) offsets1_zero,
      View.readCov_unit_zero (S := S1x1) _ offsets1_zero]
  iexists _; isplitr
  swap; · iexact HS
  ipureintro
  sl_unfold_words
  rw [View.read_writes_eq_canon _ _ _ (fun y => ⟨_, List.mem_singleton_self _, View.mem_set_unit_zero offsets1_zero inb_S1x1_S1x1_0_0 y⟩),
    View.canon_unit_zero offsets1_zero]
  simp only [View.readAt_eq_ld, View.ld_unit_zero (S := S1024x256) offsets1_zero, View.ld_unit_zero (S := S1x1) offsets1_zero]

/-- The first branch is taken at the first point only — decided over the grid. -/
theorem hcond1_0 : ∀ t : Fin cfg1.N, cond1_0 (grid1.coords t) ↔ t.val = 0 :=
  (by decide +kernel : ∀ t : Fin grid1.N, cond1_0 (grid1.coords t) ↔ t.val = 0)
/-- The second branch is taken at the last point only. -/
theorem hcond1_1 : ∀ t : Fin cfg1.N, cond1_1 (grid1.coords t) ↔ t.val = 63 :=
  (by decide +kernel : ∀ t : Fin grid1.N, cond1_1 (grid1.coords t) ↔ t.val = 63)

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- Where the second branch is not taken the body stores nothing into the result's buffer, -/
theorem idleAt1_2 : ∀ t : Fin cfg1.N, ¬cond1_1 (grid1.coords t) → cfg1.idle 2 (grid1.coords t) = true := by decide +kernel
/-- and the pipeline does not write it back there; -/
theorem noFlush1_2 : ∀ t : Fin cfg1.N, ¬cond1_1 (grid1.coords t) → (cfg1.win 2).flush t = false := by decide +kernel
/-- where it is taken, the body stores into it. -/
theorem liveAt1_2 : ∀ t : Fin cfg1.N, cond1_1 (grid1.coords t) → cfg1.idle 2 (grid1.coords t) = false := by decide +kernel

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE RUNNING SUM: what the scratch cell holds after the body at position `n` — at the first point the point's
    own term added to the zero just stored, afterwards the point's term added to what the point before left. -/
def acc1 (c : Dev nD) : (n : ℕ) → n < cfg1.N → Vec F S1x1 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩) (acc1 c n (Nat.lt_of_succ_lt h))

/-- The running sum at the first point: the point's term added to zero. -/
theorem acc1_zero (c : Dev nD) (t : Fin cfg1.N) (hz : t.val = 0) :
    acc1 V c t.val t.isLt = k1_pay2 (iblk1 V c 0 t) (iblk1 V c 1 t) (k1_pay1 (F := F)) := by
  obtain ⟨n, hn⟩ := t
  cases n with
  | zero => rfl
  | succ n => exact absurd hz (Nat.succ_ne_zero _)

/-- The running sum at a later point: the point's term added to the running sum at the point before. -/
theorem acc1_pos (c : Dev nD) (t : Fin cfg1.N) (hz : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl hz
  | succ n => rfl

/-- The scratch cell the kernel carries between points, as a memref. -/
abbrev scM1 : Memref sig .tc .vmem S1x1 .f32 := Memref.whole cc1_scratch0

/-- The scoped buffers of the core that region 1 does not stage — region 0's four staging buffers, each whole at
    some contents, and the scratch cell as `S` describes it — beside the generator register at some state. -/
def rest1 (c : Dev nD) (S : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ S) ∗ (∃ r, prngReg c r))

/-- What the launch hands the region, with the scratch cell as a memref owned at some contents. -/
theorem PhiA1_eq (c : Dev nD) :
    (Pipeline.ΦA spec1 c : sProp 𝕄) = rest1 (F := F) c (iprop(∃ d, owns (c : Thread nD τ) scM1 fullShare d)) := by
  unfold Pipeline.ΦA rest1; rw [scopedRest1_eq]; simp only [scM1, owns_whole]; try rfl

/-- The region's invariant before position `n`: before the first point every scoped buffer outside the staging
    buffers at anything; afterwards the scratch cell at the running sum the point before left, the other scoped
    buffers at anything; the generator register at some state throughout. -/
def Phi1 (c : Dev nD) : (n : ℕ) → n ≤ cfg1.N → sProp 𝕄
  | 0, _ => Pipeline.ΦA spec1 c
  | n + 1, hn => rest1 c (owns (c : Thread nD τ) scM1 fullShare (acc1 V c n hn))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = rest1 c (owns (c : Thread nD τ) scM1 fullShare (acc1 V c n hn)) := rfl

theorem Phi1_pos (c : Dev nD) (n : ℕ) (h : n ≤ cfg1.N) (hz : n ≠ 0) :
    Phi1 V c n h = rest1 c (owns (c : Thread nD τ) scM1 fullShare (acc1 V c (n - 1) (by omega))) := by
  cases n with
  | zero => exact absurd rfl hz
  | succ n => rfl

/-- The proof data of pipeline 1 on core `c`. Both input windows read the one normalised array, each holding half
    of its share; the result window's buffer is consulted at the last point only, where it holds the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- Each input window's current staging buffer holds its block at every point, fetched there or not: unfetched,
    the block index has not moved since the fetch. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input buffers hold their blocks; the point's position says which of the three
    control cases it is in. At the first point the invariant hands the scratch cell over at anything and the body
    leaves the first term of the running sum there; at a later point it hands it over at the running sum so far
    and the body leaves the next. The result's buffer is handed back as found at every point but the last, where
    the body copies the running sum into it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h1 : t.val = 63
  · -- the last point
    have h0 : ¬t.val = 0 := by omega
    have hc0 : ¬cond1_0 (grid1.coords t) := fun h => h0 ((hcond1_0 t).mp h)
    have hc1 : cond1_1 (grid1.coords t) := (hcond1_1 t).mpr h1
    rw [show (dat1 V c).leavesExact 2 t = owns (c : Thread nD τ) (st1_2 t) fullShare ((dat1 V c).after 2 t) from by
      unfold Dat.leavesExact; rw [liveAt1_2 t hc1], after1_2]
    rw [Phi1_castSucc V c t, Phi1_pos V c _ _ h0, acc1_pos V c t h0]
    unfold rest1
    iintro ⟨⟨⟨HA, HB, HC, HD, HS⟩, Hg⟩, Ho, ⟨%d0, H0⟩, ⟨%d1, H1⟩, ⟨%d2, H2⟩⟩
    iapply (sound_kernel1_C c Set.univ (grid1.coords t) _ _ _ _ _ _ _ _ hc0 hc1 (iblk1 V c 0 t) (iblk1 V c 1 t)
      (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HA HB HC HD HS Hg]
    · isplitl [HA HB HC HD HS]
      · isplitl [HA]; · iexact HA
        isplitl [HB]; · iexact HB
        isplitl [HC]; · iexact HC
        isplitl [HD]; · iexact HD
        iexact HS
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 2 t (idleAt1_2 t hc1) (noFlush1_2 t hc1)]
    by_cases h0 : t.val = 0
    · -- the first point
      have hc0 : cond1_0 (grid1.coords t) := (hcond1_0 t).mpr h0
      rw [Phi1_castSucc V c t, Phi1_zero V c _ _ h0, PhiA1_eq, acc1_zero V c t h0]
      unfold rest1
      iintro ⟨⟨⟨HA, HB, HC, HD, HS⟩, Hg⟩, Ho, ⟨%d0, H0⟩, ⟨%d1, H1⟩, ⟨%d2, H2⟩⟩
      iapply (sound_kernel1_A c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2
    · -- a middle point
      have hc0 : ¬cond1_0 (grid1.coords t) := fun h => h0 ((hcond1_0 t).mp h)
      rw [Phi1_castSucc V c t, Phi1_pos V c _ _ h0, acc1_pos V c t h0]
      unfold rest1
      iintro ⟨⟨⟨HA, HB, HC, HD, HS⟩, Hg⟩, Ho, ⟨%d0, H0⟩, ⟨%d1, H1⟩, ⟨%d2, H2⟩⟩
      iapply (sound_kernel1_B c Set.univ (grid1.coords t) _ _ _ _ _ _ _ _ hc0 hc1 (iblk1 V c 0 t) (iblk1 V c 1 t) _
        (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HA HB HC HD HS Hg]
      · isplitl [HA HB HC HD HS]
        · isplitl [HA]; · iexact HA
          isplitl [HB]; · iexact HB
          isplitl [HC]; · iexact HC
          isplitl [HD]; · iexact HD
          iexact HS
        iexact Hg
      isplitl [Ho]; · iexact Ho
      isplitl [H0]; · iexact H0
      isplitl [H1]; · iexact H1
      iexists _; iexact H2

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back, the scratch cell's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  unfold rest1
  iintro ⟨⟨HA, HB, HC, HD, HS⟩, Hg⟩
  isplitl [HA HB HC HD HS]
  · isplitl [HA]; · iexact HA
    isplitl [HB]; · iexact HB
    isplitl [HC]; · iexact HC
    isplitl [HD]; · iexact HD
    iexists _; iexact HS
  iexact Hg

end

end Cert.KernelIdeal.Hand

end
-- ==== Proof.KI.Run.lean ====
/-
  The run of the whole program: two kernel regions, then nine host operations on scalars.

  Between the items the core's unscoped buffers are held whole at a valuation: at launch the memory `m`; after
  region 0 the normalised array at what the region's write-backs leave, every other buffer unchanged; after region 1
  the 1 × 1 result likewise; after the host operations their composed values. Region 1 hands ONE array to two of its
  windows, so at its entry the array's full share is dealt into two halves, one per window, and joined again at
  its exit (both windows are inputs: the array is unchanged). Read off the last valuation: the argument array ends
  as launched, and the result buffer holds the closing affine step applied to what region 1 left.
-/
import proofs.«131471_j62929860821405_1_alg».proof.Proof.KI.Body0
import proofs.«131471_j62929860821405_1_alg».proof.Proof.KI.Body1
import proofs.«131471_j62929860821405_1_alg».proof.Proof.Gen.KernelIdeal.Regions
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m (c, b)
/-- The same read at the TensorCore's references. -/
abbrev Vr0 : (c : Dev nD) → (b : Ref sig .tc) → Buf (Elt F) ((c : Thread nD τ).loc b) := fun c b => W0 m c b
/-- At region 0's exit (region 1's entry): its arrays at what the pipeline leaves, every other buffer as entered. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- At region 1's exit: the 1 × 1 result at what the pipeline leaves, every other buffer as entered. -/
def W2 (c : Dev nD) : Valuation τ sig (Elt F) :=
  Function.update (W1 m c) (Proc.devRef .tc main_v1) ((dat1 (Vr1 m) c).arrAt 2 cfg1.N)
abbrev Vr2 : (c : Dev nD) → (b : Ref sig .tc) → Buf (Elt F) ((c : Thread nD τ).loc b) := fun c b => W2 m c b
theorem W2_main_v1 (c : Dev nD) : Vr2 m c main_v1 = (dat1 (Vr1 m) c).arrAt 2 cfg1.N := by
  unfold Vr2 W2; exact Function.update_self ..
theorem W2_of_ne (c : Dev nD) (b : Ref sig .tc) (hb : b ≠ main_v1) : Vr2 m c b = Vr1 m c b := by
  unfold Vr2 W2
  exact Function.update_of_ne (StableHlo.devRef_ne_of_ne hb : (Proc.devRef .tc b : DevRef τ sig) ≠ Proc.devRef .tc main_v1) _ _
/-- After the host operations. -/
abbrev W3 : Dev nD → Valuation τ sig (Elt F) := fun c => StableHlo.after hostOps2 (W2 m c)

/-! ## The proof data family and the thread state -/

/-- Every pipeline's proof data, each at its region's entry contents — a literal match on the pipeline's index. -/
def pdats : (p : Fin 2) → (c : Dev nD) → Dat τ (Elt F) Unit ℕ (UR sig nD τ) ℕ (Pipeline.pin (pcfgs (F := F)) adm p) c
  | ⟨0, _⟩ => fun c => dat0 (Vr0 m) c
  | ⟨1, _⟩ => fun c => dat1 (Vr1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing
    nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `W0`, left at `W1`. Its two arrays are
    distinct buffers: they are split out of the unscoped buffers at the entry and put back at the exit contents;
    the generator register goes into the region's invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### Region 1: one array behind two windows -/

/-- Region 1's arrays, window by window: the normalised array at the left half of its share for window 0 and at the
    right half for window 1, the 1 × 1 result at the full share. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Pipeline.Dat.arrays
  rw [bigSep_W1, (arr_whole1 0).set_eq_univ, (arr_whole1 2).set_eq_univ]
  rfl

/-- The buffers behind region 1's arrays are the normalised array and the 1 × 1 result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1)) := by
  unfold Pipeline.arrBufs
  exact bigSep_eq_bigSepL_of_eq [main_v0, main_v1] (by decide) (by decide) _

/-- ENTRY: the unscoped buffers at region 1's entry contents are its arrays at the proof data's entry contents — the
    normalised array's share dealt in two — and the unscoped rest. -/
theorem entry1 (c : Dev nD) :
    (StableHlo.held (c : Thread nD τ) (Pipeline.ucRefs τ sig) (W1 m c) : sProp 𝕄)
      ⊢ iprop((pdats m 1 c).arrays ((pdats m 1 c).arrAt · 0) ∗ Pipeline.unscopedRest spec1 c (Vr1 m c)) := by
  rw [← Pipeline.unscopedBufs_held (Ix := Unit) (Name := ℕ) (U := UR sig nD τ) (Lvl := ℕ) c (W1 m c),
    Pipeline.PerCore.unscopedBufs_split₀ (fun _ : Dev nD => cfgs) 1 c winFacts₀1.arr_unscoped (Vr1 m c)]
  refine sep_mono ?_ .rfl
  show (Pipeline.arrBufs spec1 c (Vr1 m c) : sProp 𝕄) ⊢ _
  rw [show (pdats m 1 c) = dat1 (Vr1 m) c from rfl, arrays1_eq, arrBufs1_eq]
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-- Both input windows leave the normalised array as they found it. -/
theorem arr1_in0 (c : Dev nD) : (dat1 (Vr1 m) c).arrAt 0 cfg1.N = Vr2 m c main_v0 :=
  ((dat1 (Vr1 m) c).arrAt_in 0 rfl _).trans ((A_eq1 (Vr1 m) c 0).trans (W2_of_ne m c main_v0 (by decide)).symm)
theorem arr1_in1 (c : Dev nD) : (dat1 (Vr1 m) c).arrAt 1 cfg1.N = Vr2 m c main_v0 :=
  ((dat1 (Vr1 m) c).arrAt_in 1 rfl _).trans ((A_eq1 (Vr1 m) c 1).trans (W2_of_ne m c main_v0 (by decide)).symm)

/-- EXIT: region 1's arrays at their final contents — the two halves of the normalised array joined — and the
    unscoped rest are the unscoped buffers at the exit contents. -/
theorem exit1 (c : Dev nD) :
    iprop((pdats m 1 c).arrays ((pdats m 1 c).arrAt · cfg1.N) ∗ Pipeline.unscopedRest spec1 c (Vr1 m c))
      ⊢ (StableHlo.held (c : Thread nD τ) (Pipeline.ucRefs τ sig) (W2 m c) : sProp 𝕄) := by
  rw [← Pipeline.unscopedBufs_held (Ix := Unit) (Name := ℕ) (U := UR sig nD τ) (Lvl := ℕ) c (W2 m c),
    Pipeline.PerCore.unscopedBufs_split₀ (fun _ : Dev nD => cfgs) 1 c winFacts₀1.arr_unscoped (Vr2 m c)]
  refine sep_mono ?_ (Entails.of_eq ?_)
  · show _ ⊢ (Pipeline.arrBufs spec1 c (Vr2 m c) : sProp 𝕄)
    rw [show (pdats m 1 c) = dat1 (Vr1 m) c from rfl, arrays1_eq, arrBufs1_eq, arr1_in0, arr1_in1, ← W2_main_v1]
    iintro ⟨Hl, Hr, H1⟩
    isplitl [Hl Hr]
    · iapply (pointsTo_share (PosShare.mem_left_op_right fullShare)).2
      isplitl [Hl]; · iexact Hl
      iexact Hr
    iexact H1
  · unfold Pipeline.unscopedRest
    exact bigSep_congr fun b hb => by
      rw [W2_of_ne m c b fun e => (Finset.mem_sdiff.mp hb).2 (Finset.mem_image.mpr ⟨2, Finset.mem_univ _, e ▸ rfl⟩)]

set_option backward.isDefEq.respectTransparency.types false in
/-- REGION 1 over the thread state: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-! ## @main as segments, and the launch -/

/-- @main's three items in order: the two regions, then the host operations from region 1's exit contents. -/
abbrev segs : List (Pipeline.Seg (pcfgs (F := F)) adm (pdats m) () defs₀ 𝒱₀ L lv) :=
  [ .region (reg0 m),
    .region (reg1 m),
    .host (hseg hostOps2 hostOps2_sub hostOps2_fresh (W2 m)) ]
theorem main_run (c : Dev nD) : main (F := F) c = Pipeline.Seg.run (segs m) := (main_chain c).trans (by chain_rfl)

/-- The last thread state without the `owes`: every unscoped buffer at the last valuation, the generator register at
    some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- THE RUN. From any memory with zero counters every weakly fair execution of @main on the TensorCores terminates,
    nothing faulting, and in every final state every unscoped buffer holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KI.Final.lean ====
/-
  What the run leaves, read off the last valuation: the argument array as launched (no item writes it: region 0
  reads it through an input window, region 1 and the host operations bypass it), and the result buffer at the closing
  affine step — subtract the row count, divide by row count squared minus row count — applied to the 1 × 1 array region 1
  left.
-/
import proofs.«131471_j62929860821405_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the regions, as one function of the 1 × 1 array they read. -/
def tailOf (s : Vec F S1x1 .f32) : FVec F S_ .f32 :=
  Host.divf (subf (shapeCast S_ s shapeCasts_S1x1_S_) (constant S_ .f32 0x46000000#32))
    (subf (mulf (constant S_ .f32 0x46000000#32) (constant S_ .f32 0x46000000#32)) (constant S_ .f32 0x46000000#32))

/-- The argument array reaches the end as launched. -/
theorem W3_main_arg0 (c : Dev nD) : W3 m c (Proc.devRef .tc main_arg0) = m ((c : Thread nD τ).loc main_arg0) :=
  (StableHlo.after_of_writes_sub hostOps2 (W2 m c) hostOps2_writes (by decide : main_arg0 ∉ hostOps2_W)).trans <|
    (W2_of_ne m c main_arg0 (by decide)).trans <| (W1_arr m c 0).trans <|
      ((dat0 (Vr0 m) c).arrAt_in 0 rfl _).trans (A_eq0 (Vr0 m) c 0)

/-- The result buffer holds the host operations' value of what region 1 left. -/
theorem W3_main_v6 (c : Dev nD) : W3 m c (Proc.devRef .tc main_v6) = tailOf (Vr2 m c main_v1) := by
  show StableHlo.after hostOps2 (W2 m c) (Proc.devRef .tc main_v6) = _
  after_results
  rfl

/-- The normalised array region 1 reads is what region 0 left. -/
theorem Vr1_main_v0 (c : Dev nD) : Vr1 m c main_v0 = (dat0 (Vr0 m) c).arrAt 1 cfg0.N := W1_arr m c 1

/-- THE FRAME, at any instance: every weakly fair execution terminates, nothing faults, the argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m c)) (run_all m ρ)

/-- THE RUN WITH ITS RESULT NAMED, at any instance. -/
theorem run_value : θ_run defs (onTc (τ := τ) (main (F := F))) ⟨m, fun _ => 0, ρ⟩ (fun r => ∀ c : Dev nD,
      r.2.mem ((c.tc : Thread nD τ).loc main_v6) = tailOf (Vr2 m c main_v1)
      ∧ r.2.mem ((c.tc : Thread nD τ).loc main_arg0) = m ((c.tc : Thread nD τ).loc main_arg0)) :=
  (θ_run defs _ _).mono (fun _ h c => ⟨(h c _ (mem_uc main_v6 (by decide))).trans (W3_main_v6 m c),
    (h c _ (mem_uc main_arg0 (by decide))).trans (W3_main_arg0 m c)⟩) (run_all m ρ)

end Cert.KernelIdeal.Hand

end
-- ==== Proof.Spec.lean ====
/-
  The mathematics both programs compute, stated once over plain index types.

  The input is an 8192 × 256 array `x` of extended reals. Every row is divided by the larger of its Euclidean norm
  and a fixed positive constant `eps`; the Gram matrix of the normalised rows is formed, every entry squared, and
  all 8192 × 8192 squares summed to `total`; the result is `(total − n) / (n·n − n)` with `n` the number of rows.
  The one law that joins the two programs is that a sum over all pairs of rows may be taken tile by tile: over the
  64 pairs of row blocks in row-major order, and inside a pair over the 1024 × 1024 pairs of rows. Addition of
  extended reals is commutative and associative, so no finiteness is needed for it.
-/
import Idealize.ShloMosaic.PureOps.Ideal
import Idealize.ShloMosaic.Lib.ValueIdx
import Mathlib.Algebra.BigOperators.Group.Finset.Defs
import Mathlib.Algebra.BigOperators.Group.Finset.Sigma
import Mathlib.Data.Fintype.BigOperators
import Mathlib.Logic.Equiv.Fin.Basic

noncomputable section

namespace Cert.CosGram

open Idealize.ShloMosaic Idealize.ShloMosaic.ValueIdx

/-- The input's shape. -/
abbrev SX : Shape := ⟨2, ![8192, 256]⟩

/-- The clamp on a row's norm (the f32 nearest to 1e-8). -/
def eps : EReal := Ideal.ofBits .f32 0x322BCC77#32
/-- The number of rows, as a float: 8192. -/
def nF : EReal := Ideal.ofBits .f32 0x46000000#32

/-- Row `r`'s clamped Euclidean norm. -/
def nrm (x : SX.Idx → EReal) (r : Fin 8192) : EReal :=
  max (Ideal.sqrt (∑ k : Fin 256, x (ix2 r k) * x (ix2 r k))) eps

/-- Entry `(r, k)` of the normalised array. -/
def xn (x : SX.Idx → EReal) (r : Fin 8192) (k : Fin 256) : EReal := Ideal.div (x (ix2 r k)) (nrm x r)

/-- The normalised array as an array. -/
def xnArr (x : SX.Idx → EReal) : SX.Idx → EReal := fun i => xn x (i 0) (i 1)

/-- The square of the inner product of rows `i` and `j` of `y`. -/
def gramSq (y : SX.Idx → EReal) (i j : Fin 8192) : EReal :=
  (∑ k : Fin 256, y (ix2 i k) * y (ix2 j k)) * (∑ k : Fin 256, y (ix2 i k) * y (ix2 j k))

/-- The sum of the squared inner products over all pairs of rows. -/
def total (y : SX.Idx → EReal) : EReal := ∑ i : Fin 8192, ∑ j : Fin 8192, gramSq y i j

/-- The closing affine step. -/
def tail (s : EReal) : EReal := Ideal.div (s - nF) (nF * nF - nF)

/-- The result as one function of the input. -/
def G (x : SX.Idx → EReal) : EReal := tail (total (xnArr x))

/-- Row `p` of row block `a`. -/
def rowOf (a : Fin 8) (p : Fin 1024) : Fin 8192 := ⟨1024 * a.val + p.val, by have := a.isLt; have := p.isLt; omega⟩

/-- A sum over the 8192 rows is the sum over the 8 row blocks of the sums over a block's 1024 rows: the pair
    `(a, p)` names row `1024·a + p`, and every row is named exactly once. -/
theorem sum_rows {M : Type} [AddCommMonoid M] (g : Fin 8192 → M) :
    ∑ i : Fin 8192, g i = ∑ a : Fin 8, ∑ p : Fin 1024, g (rowOf a p) := by
  rw [← Fintype.sum_prod_type' (f := fun a p => g (rowOf a p))]
  refine (Fintype.sum_equiv (finProdFinEquiv (m := 8) (n := 1024)) _ _ ?_).symm
  rintro ⟨a, p⟩
  refine congrArg g (Fin.ext ?_)
  simp only [rowOf, finProdFinEquiv_apply_val]
  omega

/-- A sum over the 64 grid positions, read as (quotient, remainder) by 8, is the double sum over the 8 × 8 pairs
    of blocks: `t ↦ (t / 8, t % 8)` is a bijection. -/
theorem sum_grid {M : Type} [AddCommMonoid M] (h : Fin 8 → Fin 8 → M) :
    ∑ t : Fin 64, h ⟨t.val / 8, by have := t.isLt; omega⟩ ⟨t.val % 8, by omega⟩
      = ∑ a : Fin 8, ∑ b : Fin 8, h a b := by
  rw [← Fintype.sum_prod_type' (f := h)]
  exact Fintype.sum_equiv (finProdFinEquiv (m := 8) (n := 8)).symm _ _ (fun t => rfl)

/-- TILE BY TILE: a sum over all pairs of rows is the sum, over the 64 grid positions `t` in row-major order
    (row block `t / 8`, column block `t % 8`), of the sums over the pairs inside the tile. -/
theorem sum_tiles (f : Fin 8192 → Fin 8192 → EReal) :
    ∑ i : Fin 8192, ∑ j : Fin 8192, f i j
      = ∑ t : Fin 64, ∑ p : Fin 1024, ∑ q : Fin 1024,
          f (rowOf ⟨t.val / 8, by have := t.isLt; omega⟩ p) (rowOf ⟨t.val % 8, by omega⟩ q) := by
  -- the right side is the sum over pairs of blocks (a, b) of the sums over a tile
  refine Eq.trans ?_ (sum_grid (fun a b => ∑ p : Fin 1024, ∑ q : Fin 1024, f (rowOf a p) (rowOf b q))).symm
  -- split the outer sum by row block, then the inner one, and move the column block's sum outside a block's rows
  refine (sum_rows _).trans (Finset.sum_congr rfl fun a _ => ?_)
  refine Eq.trans (Finset.sum_congr rfl fun p _ => sum_rows (fun j => f (rowOf a p) j)) ?_
  exact Finset.sum_comm

end Cert.CosGram

end
-- ==== Proof.KI.Value0.lean ====
/-
  What region 0 leaves in the normalised array: every block is the row-normalisation of the same rows of the
  input, and the 8 blocks tile the array, so the array ends holding the normalised input.
-/
import proofs.«131471_j62929860821405_1_alg».proof.Proof.KI.Body0
import proofs.«131471_j62929860821405_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

/-- The block rectangle's offsets are all zero. -/
theorem off0_zero : (![0, 0] : Fin 2 → Nat) = fun _ => 0 := funext fun a => by fin_cases a <;> rfl

/-- The one store covers the block, so what the body leaves is its payload. -/
theorem out0_1_eq (x0 : Vec Ideal S1024x256 .f32) : out0_1 (F := Ideal) x0 = k0_pay1 x0 := by
  unfold out0_1
  rw [View.canon_unit_zero off0_zero]
  simp only [View.ld_unit_zero (S := S1024x256) off0_zero]

/-- Row `p` of the reduced array with lane `k` put back is `(p, k)`. -/
theorem lift_row (h : S1024x256.Reduces [1] S1024) (p : Fin 1024) (k : Fin (S1024x256.size 1)) :
    h.lift (ix1 p) k = ix2 p (⟨k.val, k.isLt⟩ : Fin 256) := by
  funext c; apply Fin.ext
  fin_cases c <;> rfl

/-- The lane sum of a block at row `p`. -/
theorem rowsum_apply (src : FVec Ideal S1024x256 .f32) (h : S1024x256.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ k : Fin 256, src (ix2 p k) := by
  refine (Ideal.multiReduction_add_single src 0x00000000#32 h hφ hacc (ix1 p)).trans ?_
  exact Finset.sum_congr rfl fun k _ => congrArg src (lift_row h p k)

/-- A column cast `[1024] → [1024, 1]` reads, at `(p, u)`, the operand at `p`. -/
theorem cast_col_apply {α : Type} (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[1024, 1]` broadcast to `[1024, 256]` reads, at `(p, q)`, the column at row `p`. -/
theorem bcast_col_apply {α : Type} (v : S1024x1.Idx → α) (h : S1024x1.Broadcasts S1024x256) (p : Fin 1024) (q : Fin 256) :
    broadcastTo S1024x256 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ => rfl

/-- THE BODY'S PAYLOAD AT AN INDEX: entry `(p, q)` of the block divided by row `p`'s clamped Euclidean norm. -/
theorem pay_apply (x0 : FVec Ideal S1024x256 .f32) (p : Fin 1024) (q : Fin 256) :
    k0_pay1 (F := Ideal) x0 (ix2 p q)
      = Ideal.div (x0 (ix2 p q)) (max (Ideal.sqrt (∑ k : Fin 256, x0 (ix2 p k) * x0 (ix2 p k))) Cert.CosGram.eps) := by
  unfold k0_pay1
  show Ideal.div (x0 (ix2 p q)) (broadcastTo S1024x256 _ broadcasts_S1024x1_S1024x256 (ix2 p q)) = _
  refine congrArg (Ideal.div (x0 (ix2 p q))) ?_
  refine (bcast_col_apply _ broadcasts_S1024x1_S1024x256 p q).trans ?_
  show max (Ideal.sqrt (shapeCast S1024x1 _ shapeCasts_S1024_S1024x1 (ix2 p (0 : Fin 1)))) (Ideal.ofBits .f32 0x322BCC77#32) = _
  refine congrArg (fun s => max (Ideal.sqrt s) Cert.CosGram.eps) ?_
  refine (cast_col_apply _ shapeCasts_S1024_S1024x1 p 0).trans ?_
  exact rowsum_apply (mulf x0 x0) _ _ _ p

/-- What the body leaves at any index `jj` of the block: the entry there divided by its row's clamped Euclidean norm. -/
theorem out_apply (X : FVec Ideal S1024x256 .f32) (jj : S1024x256.Idx) :
    out0_1 (F := Ideal) X jj
      = Ideal.div (X jj) (max (Ideal.sqrt (∑ k : Fin 256, X (ix2 (jj 0) k) * X (ix2 (jj 0) k))) Cert.CosGram.eps) := by
  rw [out0_1_eq]
  obtain ⟨p, q, rfl⟩ : ∃ (p : Fin 1024) (q : Fin 256), jj = ix2 p q := ⟨jj 0, jj 1, eq_ix2 jj⟩
  exact pay_apply X p q

/-- What the body leaves at an index of the block, against the row-normalisation of an array `x` at an index `i`:
    equal as soon as the block's entry there is `x`'s at `i` and the block's row there is `x`'s row `i 0`. -/
theorem out_eq_xn (x : Cert.CosGram.SX.Idx → EReal) (X : FVec Ideal S1024x256 .f32) (jj : S1024x256.Idx) (i : Cert.CosGram.SX.Idx)
    (h0 : X jj = x i) (hk : ∀ k : Fin 256, X (ix2 (jj 0) k) = x (ix2 (i 0) k)) :
    out0_1 (F := Ideal) X jj = Cert.CosGram.xnArr x i := by
  refine (out_apply X jj).trans ?_
  show _ = Ideal.div (x (ix2 (i 0) (i 1))) (max (Ideal.sqrt (∑ k : Fin 256, x (ix2 (i 0) k) * x (ix2 (i 0) k))) Cert.CosGram.eps)
  have a0 : X jj = x (ix2 (i 0) (i 1)) := h0.trans (congrArg x (eq_ix2 i))
  have a1 : (∑ k : Fin 256, X (ix2 (jj 0) k) * X (ix2 (jj 0) k)) = ∑ k : Fin 256, x (ix2 (i 0) k) * x (ix2 (i 0) k) :=
    Finset.sum_congr rfl fun k _ => by rw [hk k]
  rw [a0, a1]

/-- The two windows' index maps, decided over the grid: the input's block moves with the output's, both stay in
    column block 0, and the output's row block is in range. -/
theorem idx_facts0 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 7 :=
  (by decide +kernel : ∀ t : Fin grid0.N, _)

/-- Every row block is some point's. -/
theorem idx_onto0 : ∀ q0 : Fin 8, ∃ t : Fin cfg0.N, win0_1.index t = ![q0.val, 0] :=
  (by decide +kernel : ∀ q0 : Fin 8, ∃ t : Fin grid0.N, win0_1.index t = ![q0.val, 0])

variable (V : (c : Dev nD) → (b : Ref sig .tc) → Buf (Elt Ideal) ((c : Thread nD τ).loc b))

/-- WHAT POINT `t` WRITES BACK is block `t` of the row-normalisation of the input array as the region finds it. -/
theorem flushed0_1_eq (c : Dev nD) (t : Fin cfg0.N) :
    (dat0 (F := Ideal) V c).flushed 1 t = ((cfg0.win 1).blk t).view.read (Elt Ideal) (Cert.CosGram.xnArr (V c main_arg0)) := by
  show (cfg0.win 1).cut (grid0.coords t) ((dat0 V c).after 1 t) = _
  rw [after0_1]
  obtain ⟨e0, e1, e2, e3⟩ := idx_facts0 t
  funext j
  refine out_eq_xn (V c main_arg0) (iblk0 V c 0 t) ((cfg0.win 1).xinj (grid0.coords t) j) (((cfg0.win 1).blk t).view.emb j) ?_ ?_
  · show V c main_arg0 (((cfg0.win 0).blk t).view.emb ((cfg0.win 1).xinj (grid0.coords t) j)) = V c main_arg0 (((cfg0.win 1).blk t).view.emb j)
    refine congrArg (V c main_arg0) ?_
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 256 + 1 * (j 1).val = win0_1.index t (1 : Fin 2) * 256 + 1 * (j 1).val; omega
  · intro k
    show V c main_arg0 (((cfg0.win 0).blk t).view.emb (ix2 (((cfg0.win 1).xinj (grid0.coords t) j) 0) k)) = V c main_arg0 (ix2 ((((cfg0.win 1).blk t).view.emb j) 0) k)
    refine congrArg (V c main_arg0) ?_
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 256 + 1 * k.val = k.val; omega

/-- An index of the array is in point `t`'s block iff each coordinate is in the block's range on its axis. -/
theorem mem_blk0_1 (t : Fin cfg0.N) (i : S8192x256.Idx) :
    i ∈ ((cfg0.win 1).blk t).view.set ↔ ∀ a : Fin 2, win0_1.index t a * S1024x256.size a ≤ (i a).val ∧ (i a).val < win0_1.index t a * S1024x256.size a + S1024x256.size a := by
  show i ∈ ((View.whole main_v0).slice (win0_1.rect t)).set ↔ _
  rw [View.set_slice_whole, Rect.mem_set_unit]
  exact Iff.rfl

/-- THE BLOCKS TILE THE ARRAY: row `r` lies in row block `r / 1024`, and every point writes its block back. -/
theorem cover0_arr (i : S8192x256.Idx) :
    ∃ t : Fin cfg0.N, (cfg0.win 1).flush t = true ∧ i ∈ ((cfg0.win 1).blk t).view.set := by
  have hi0 : (i 0).val < 8192 := (i 0).isLt
  have hi1 : (i 1).val < 256 := (i 1).isLt
  obtain ⟨t, ht⟩ := idx_onto0 ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 256 ≤ (i 1).val ∧ (i 1).val < win0_1.index t (1 : Fin 2) * 256 + 256; omega

/-- The normalised array after region 0, whatever the core's buffers held at its entry: the row-normalisation of
    the input array as the region found it. -/
theorem arr0_final (V : (c : Dev nD) → (b : Ref sig .tc) → Buf (Elt Ideal) ((c : Thread nD τ).loc b)) (c : Dev nD) :
    (dat0 (F := Ideal) V c).arrAt 1 cfg0.N = Cert.CosGram.xnArr (V c main_arg0) :=
  (dat0 (F := Ideal) V c).arrAt_eq_of_cover 1 (Cert.CosGram.xnArr (V c main_arg0)) (fun t _ => flushed0_1_eq V c t) cover0_arr

end Cert.KernelIdeal.Hand

end
-- ==== Proof.KI.Value1Pay.lean ====
/-
  The term one grid point of region 1 adds to the running sum. The point holds two 1024 × 256 blocks `a` and `b`
  (row blocks of the one normalised array). Its body forms the 1024 × 1024 matrix of inner products of the rows of
  `a` with the rows of `b` (a product with the transpose of `b`, accumulated into zeros), squares every entry, sums
  each row, sums the 1024 row sums, and adds the number to the 1 × 1 cell it carries. At the ideal values nothing
  rounds, so the new cell is the old cell plus the sum over all pairs (p, q) of the squared inner product of row p
  of `a` with row q of `b`.
-/
import proofs.«131471_j62929860821405_1_alg».proof.Proof.Gen.KernelIdeal.Skeleton
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Cert.KernelIdeal.Gen

/-! ## The product's operand indices -/

/-- The left operand is read at the result's row. -/
theorem mm1_lhs_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- The left operand is read at the contraction position along its second axis. -/
theorem mm1_lhs_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- The right operand is read at the contraction position along its first axis. -/
theorem mm1_rhs_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- The right operand is read at the result's column. -/
theorem mm1_rhs_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-! ## The matrix of inner products -/

/-- Entry (p, q) of the product of `x` with `y`, accumulated into zeros: the sum over the 256 positions of the
    products of the operands' entries. -/
theorem mm1_apply (x : FVec Ideal S1024x256 .bf16) (y : FVec Ideal S256x1024 .bf16) (p q : Fin 1024) :
    matmul dot_S1024x256_S256x1024_S1024x1024_1_0_0_1_n_n none x y (constant (F := Ideal) S1024x1024 .f32 0x00000000#32) (ix2 p q)
      = ∑ k : Fin 256, x (ix2 p k) * y (ix2 k q) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact mm1_lhs_0 _ _
    | ⟨1, _⟩ => exact (mm1_lhs_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (mm1_rhs_0 _ _).trans hk
    | ⟨1, _⟩ => exact mm1_rhs_1 _ _)
  rw [el, er]

/-! ## The layout steps at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two sums -/

/-- The sum along a row of a 1024 × 1024 matrix. -/
theorem rowSum1_apply (x : FVec Ideal S1024x1024 .f32) (p : Fin 1024) :
    multiReduction (F := Ideal) .add [1] S1024 x 0x00000000#32 reduces_S1024x1024_S1024 (.inl rfl) rfl (ix1 p)
      = ∑ q : Fin 1024, x (ix2 p q) := by
  refine (Ideal.multiReduction_add_single x 0x00000000#32 reduces_S1024x1024_S1024 (.inl rfl) rfl (ix1 p)).trans ?_
  refine Finset.sum_congr rfl fun q _ => congrArg x (funext fun c => Fin.ext ?_)
  match c with
  | ⟨0, _⟩ => rfl
  | ⟨1, _⟩ => rfl

/-- The sum down the one column of a 1024 × 1 matrix. -/
theorem colSum1_apply (x : FVec Ideal S1024x1 .f32) (v : Fin 1) :
    multiReduction (F := Ideal) .add [0] S1 x 0x00000000#32 reduces_S1024x1_S1 (.inl rfl) rfl (ix1 v)
      = ∑ p : Fin 1024, x (ix2 p v) := by
  refine (Ideal.multiReduction_add_single x 0x00000000#32 reduces_S1024x1_S1 (.inl rfl) rfl (ix1 v)).trans ?_
  refine Finset.sum_congr rfl fun p _ => congrArg x (funext fun c => Fin.ext ?_)
  match c with
  | ⟨0, _⟩ => rfl
  | ⟨1, _⟩ => rfl

/-! ## The point's term -/

/-- THE TILE'S SUM: over all pairs (p, q) of a row of `a` and a row of `b`, the square of their inner product. -/
def tile1 (a b : Vec Ideal S1024x256 .bf16) : EReal :=
  ∑ p : Fin 1024, ∑ q : Fin 1024,
    (∑ k : Fin 256, a (ix2 p k) * b (ix2 q k)) * (∑ k : Fin 256, a (ix2 p k) * b (ix2 q k))

/-- The zero the first point stores. -/
theorem k1_pay1_eq : k1_pay1 (F := Ideal) = fun _ => 0 := by
  funext j
  unfold k1_pay1
  rw [shapeCast_self]
  exact Ideal.ofBits_zero_f32

/-- THE BODY'S STEP: the new cell is the old cell plus the tile's sum. -/
theorem k1_pay2_eq (a b : Vec Ideal S1024x256 .bf16) (s : Vec Ideal S1x1 .f32) :
    k1_pay2 (F := Ideal) a b s = fun j => s j + tile1 a b := by
  funext j
  obtain ⟨u, v, rfl⟩ : ∃ (u : Fin 1) (v : Fin 1), j = ix2 u v := ⟨j 0, j 1, eq_ix2 j⟩
  unfold k1_pay2
  rw [shapeCast_self, shapeCast_self, shapeCast_self]
  refine (addf_apply _ _ _).trans ?_
  refine congrArg (s (ix2 u v) + ·) ?_
  refine (shapeCast_a_1a_apply _ shapeCasts_S1_S1x1 u v).trans ?_
  refine (colSum1_apply _ v).trans ?_
  unfold tile1
  refine Finset.sum_congr rfl fun p _ => ?_
  refine (shapeCast_a_a1_apply _ shapeCasts_S1024_S1024x1 p v).trans ?_
  refine (rowSum1_apply _ p).trans ?_
  refine Finset.sum_congr rfl fun q _ => ?_
  refine (mulf_apply _ _ _).trans ?_
  have e : matmul (φ₁ := .bf16) (φ₂ := .bf16) dot_S1024x256_S256x1024_S1024x1024_1_0_0_1_n_n none a (transpose S256x1024 [1, 0] b transposes_S1024x256_p1_0_S256x1024) (constant (F := Ideal) S1024x1024 .f32 0x00000000#32) (ix2 p q)
      = ∑ k : Fin 256, a (ix2 p k) * b (ix2 q k) := by
    refine (mm1_apply a _ p q).trans ?_
    refine Finset.sum_congr rfl fun k _ => ?_
    exact congrArg (a (ix2 p k) * ·) (transpose_ix2_apply b transposes_S1024x256_p1_0_S256x1024 k q)
  exact congrArg₂ (· * ·) e e

end Cert.KernelIdeal.Hand

end
-- ==== Proof.KI.Value1.lean ====
/-
  What region 1 leaves in its 1 × 1 result: the running sum after the last point, which is the sum over all 64
  tiles of the tile's sum of squared inner products — the sum over all pairs of rows of the array it read.

  Point t = 8·i + j of the grid reads row blocks i and j of the one array; its two blocks are rows 1024·i + p and
  1024·j + q of the array. By induction on the position, the scratch cell after position n holds the sum of the
  tiles' sums over the positions 0, …, n (the first point adds its tile's sum to the zero it has just stored). Only
  the last point writes the cell back, and its block is the whole 1 × 1 array, so the array ends holding the sum
  over all 64 tiles; summing tile by tile is summing over all pairs of rows.
-/
import proofs.«131471_j62929860821405_1_alg».proof.Proof.KI.Body1
import proofs.«131471_j62929860821405_1_alg».proof.Proof.KI.Value1Pay
import proofs.«131471_j62929860821405_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

/-! ## The grid -/

/-- A position of the grid is below 64. -/
theorem pos_lt64 (t : Fin cfg1.N) : t.val < 64 := lt_of_lt_of_eq t.isLt N_1

/-- The last position. -/
def tLast1 : Fin cfg1.N := ⟨63, lt_of_lt_of_eq (by decide : 63 < 64) N_1.symm⟩

/-- The index maps, decided once over the grid: at position `t` the first window is on row block `t / 8`, the
    second on row block `t % 8`, both on the one column block. -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, win1_0.index t (0 : Fin 2) = t.val / 8 ∧ win1_0.index t (1 : Fin 2) = 0
    ∧ win1_1.index t (0 : Fin 2) = t.val % 8 ∧ win1_1.index t (1 : Fin 2) = 0)

section
variable (V : (c : Dev nD) → (b : Ref sig .tc) → Buf (Elt Ideal) ((c : Thread nD τ).loc b))

/-! ## The two blocks of a point, read off the array -/

/-- The array region 1 reads, as it finds it. -/
abbrev yarr1 (c : Dev nD) : Cert.CosGram.SX.Idx → EReal := V c main_v0
/-- The first window's block at position `t`. -/
abbrev ablk1 (c : Dev nD) (t : Fin cfg1.N) : Vec Ideal S1024x256 .bf16 := iblk1 V c 0 t
/-- The second window's block at position `t`. -/
abbrev bblk1 (c : Dev nD) (t : Fin cfg1.N) : Vec Ideal S1024x256 .bf16 := iblk1 V c 1 t

/-- Row `p` of the first block at position `t` is row `p` of row block `t / 8` of the array. -/
theorem ablk1_apply (c : Dev nD) (t : Fin cfg1.N) (p : Fin 1024) (k : Fin 256) :
    ablk1 V c t (ix2 p k)
      = yarr1 V c (ix2 (Cert.CosGram.rowOf ⟨t.val / 8, by have := pos_lt64 t; omega⟩ p) k) := by
  obtain ⟨e0, e1, -, -⟩ := idx_facts1 t
  show V c main_v0 (((cfg1.win 0).blk t).view.emb (ix2 p k)) = V c main_v0 _
  refine congrArg (V c main_v0) (funext fun a => Fin.ext ?_)
  match a with
  | ⟨0, _⟩ => show win1_0.index t (0 : Fin 2) * 1024 + 1 * p.val = 1024 * (t.val / 8) + p.val; omega
  | ⟨1, _⟩ => show win1_0.index t (1 : Fin 2) * 256 + 1 * k.val = k.val; omega

/-- Row `q` of the second block at position `t` is row `q` of row block `t % 8` of the array. -/
theorem bblk1_apply (c : Dev nD) (t : Fin cfg1.N) (q : Fin 1024) (k : Fin 256) :
    bblk1 V c t (ix2 q k)
      = yarr1 V c (ix2 (Cert.CosGram.rowOf ⟨t.val % 8, by omega⟩ q) k) := by
  obtain ⟨-, -, e2, e3⟩ := idx_facts1 t
  show V c main_v0 (((cfg1.win 1).blk t).view.emb (ix2 q k)) = V c main_v0 _
  refine congrArg (V c main_v0) (funext fun a => Fin.ext ?_)
  match a with
  | ⟨0, _⟩ => show win1_1.index t (0 : Fin 2) * 1024 + 1 * q.val = 1024 * (t.val % 8) + q.val; omega
  | ⟨1, _⟩ => show win1_1.index t (1 : Fin 2) * 256 + 1 * k.val = k.val; omega

/-! ## One tile -/

/-- The tile's sum at position `t`, over the array: the squared inner products of the rows of row block `t / 8`
    with the rows of row block `t % 8`. -/
theorem tile1_eq (c : Dev nD) (t : Fin cfg1.N) :
    tile1 (ablk1 V c t) (bblk1 V c t)
      = ∑ p : Fin 1024, ∑ q : Fin 1024,
          Cert.CosGram.gramSq (yarr1 V c) (Cert.CosGram.rowOf ⟨t.val / 8, by have := pos_lt64 t; omega⟩ p)
            (Cert.CosGram.rowOf ⟨t.val % 8, by omega⟩ q) := by
  unfold tile1 Cert.CosGram.gramSq
  refine Finset.sum_congr rfl fun p _ => Finset.sum_congr rfl fun q _ => ?_
  have e : ∑ k : Fin 256, ablk1 V c t (ix2 p k) * bblk1 V c t (ix2 q k)
      = ∑ k : Fin 256, yarr1 V c (ix2 (Cert.CosGram.rowOf ⟨t.val / 8, by have := pos_lt64 t; omega⟩ p) k)
          * yarr1 V c (ix2 (Cert.CosGram.rowOf ⟨t.val % 8, by omega⟩ q) k) :=
    Finset.sum_congr rfl fun k _ => congrArg₂ (· * ·) (ablk1_apply V c t p k) (bblk1_apply V c t q k)
  exact congrArg₂ (· * ·) e e

/-! ## The running sum -/

/-- The tile's sum at position `n` (zero past the grid, where no position is). -/
def tileAt1 (c : Dev nD) (n : ℕ) : EReal :=
  if h : n < cfg1.N then tile1 (ablk1 V c ⟨n, h⟩) (bblk1 V c ⟨n, h⟩) else 0

theorem tileAt1_of_lt (c : Dev nD) (n : ℕ) (h : n < cfg1.N) :
    tileAt1 V c n = tile1 (ablk1 V c ⟨n, h⟩) (bblk1 V c ⟨n, h⟩) := dif_pos h

/-- THE RUNNING SUM after position `n` is the sum of the tiles' sums over the positions up to `n`: by induction on
    the position. -/
theorem acc1_eq (c : Dev nD) : ∀ (n : ℕ) (h : n < cfg1.N),
    acc1 V c n h = fun _ => ∑ t ∈ Finset.range (n + 1), tileAt1 V c t
  | 0, h => by
    refine (k1_pay2_eq (ablk1 V c ⟨0, h⟩) (bblk1 V c ⟨0, h⟩) (k1_pay1 (F := Ideal))).trans ?_
    funext j
    show k1_pay1 (F := Ideal) j + tile1 (ablk1 V c ⟨0, h⟩) (bblk1 V c ⟨0, h⟩) = _
    rw [congrFun k1_pay1_eq j, zero_add, Finset.sum_range_one, tileAt1_of_lt V c 0 h]
  | n + 1, h => by
    refine (k1_pay2_eq (ablk1 V c ⟨n + 1, h⟩) (bblk1 V c ⟨n + 1, h⟩) (acc1 V c n (Nat.lt_of_succ_lt h))).trans ?_
    funext j
    show acc1 V c n (Nat.lt_of_succ_lt h) j + tile1 (ablk1 V c ⟨n + 1, h⟩) (bblk1 V c ⟨n + 1, h⟩) = _
    rw [congrFun (acc1_eq c n (Nat.lt_of_succ_lt h)) j, Finset.sum_range_succ _ (n + 1), tileAt1_of_lt V c (n + 1) h]

/-! ## All the tiles -/

/-- The sum over all 64 positions of the tiles' sums is the sum over all pairs of rows. -/
theorem total1_eq (c : Dev nD) :
    ∑ t ∈ Finset.range 64, tileAt1 V c t = Cert.CosGram.total (V c main_v0) := by
  unfold Cert.CosGram.total
  rw [Cert.CosGram.sum_tiles, Finset.sum_range]
  refine Finset.sum_congr rfl fun t _ => ?_
  have ht : t.val < cfg1.N := lt_of_lt_of_eq t.isLt N_1.symm
  rw [tileAt1_of_lt V c t.val ht]
  exact tile1_eq V c ⟨t.val, ht⟩

/-! ## The array -/

/-- The 1 × 1 result after region 1, whatever the core's buffers held at its entry: the sum of the squared inner
    products over all pairs of rows of the normalised array as the region found it. -/
theorem arr1_final (c : Dev nD) :
    (dat1 (F := Ideal) V c).arrAt 2 cfg1.N = fun _ => Cert.CosGram.total (V c main_v0) := by
  refine (dat1 (F := Ideal) V c).arrAt_eq_of_cover 2 (fun _ => Cert.CosGram.total (V c main_v0)) (fun t hf => ?_) (fun i => ?_)
  · -- the one write-back is the last position's, and there the cell holds the sum over all positions
    have h63 : t.val = 63 := by have := (flush1_2 t).mp hf; have := pos_lt64 t; omega
    show (cfg1.win 2).cut (grid1.coords t) ((dat1 (F := Ideal) V c).after 2 t) = _
    rw [after1_2, acc1_eq V c t.val t.isLt]
    funext j
    show ∑ s ∈ Finset.range (t.val + 1), tileAt1 V c s = Cert.CosGram.total (V c main_v0)
    rw [h63]
    exact total1_eq V c
  · -- its block is the whole 1 × 1 array
    refine ⟨tLast1, (flush1_2 tLast1).mpr rfl, ?_⟩
    show i ∈ ((View.whole main_v1).slice (win1_2.rect tLast1)).set
    rw [View.set_slice_whole, Rect.mem_set_unit]
    intro a
    have h0 : (i 0 : Nat) < 1 := (i 0).isLt
    have h1 : (i 1 : Nat) < 1 := (i 1).isLt
    match a with
    | ⟨0, _⟩ =>
      show win1_2.index tLast1 0 * win1_2.size 0 ≤ (i 0 : Nat) ∧ (i 0 : Nat) < win1_2.index tLast1 0 * win1_2.size 0 + win1_2.xsize (grid1.coords tLast1) 0
      rw [show win1_2.index tLast1 0 * win1_2.size 0 = 0 from by decide +kernel, show win1_2.xsize (grid1.coords tLast1) 0 = 1 from by decide +kernel]; omega
    | ⟨1, _⟩ =>
      show win1_2.index tLast1 1 * win1_2.size 1 ≤ (i 1 : Nat) ∧ (i 1 : Nat) < win1_2.index tLast1 1 * win1_2.size 1 + win1_2.xsize (grid1.coords tLast1) 1
      rw [show win1_2.index tLast1 1 * win1_2.size 1 = 0 from by decide +kernel, show win1_2.xsize (grid1.coords tLast1) 1 = 1 from by decide +kernel]; omega

end

end Cert.KernelIdeal.Hand

end
-- ==== Proof.KI.Bridge.lean ====
/-
  At the ideal instance the kernel program's result is the specification's: the host operations after the regions
  are the closing affine step; what they read is the sum of squared inner products of the array region 1 read; that
  array is what region 0 left, the row-normalisation of the argument.
-/
import proofs.«131471_j62929860821405_1_alg».proof.Proof.KI.Final
import proofs.«131471_j62929860821405_1_alg».proof.Proof.KI.Value0
import proofs.«131471_j62929860821405_1_alg».proof.Proof.KI.Value1
import proofs.«131471_j62929860821405_1_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Cert.KernelIdeal.Gen

/-- The host operations after the regions, applied to a 1 × 1 array holding `T`: `(T − n) / (n·n − n)`. -/
theorem tailOf_const (T : EReal) : tailOf (F := Ideal) (fun _ => T) = fun _ => Cert.CosGram.tail T := by
  funext i
  simp only [tailOf, Host.divf, subf, mulf, constant, shapeCast, Ideal.hostDivf_def, Ideal.subf_def, Ideal.mulf_def,
    Ideal.ofBits_def, Cert.CosGram.tail, Cert.CosGram.nF]

variable (m : (ℓ : Loc nD τ sig) → Buf (Elt Ideal) ℓ)

/-- The result buffer's contents after the run are the specification of the argument array. -/
theorem result_eq (c : Dev nD) :
    tailOf (F := Ideal) (Vr2 m c main_v1) = fun _ => Cert.CosGram.G (m ((c : Thread nD τ).loc main_arg0)) := by
  rw [W2_main_v1, arr1_final (Vr1 m) c, Vr1_main_v0, arr0_final (Vr0 m) c]
  exact tailOf_const _

end Cert.KernelIdeal.Hand

end
-- ==== Proof.RefSide.lean ====
/-
  The reference computes the specification: read one operation at a time, its result is
  `(total − n) / (n·n − n)` of the row-normalised input, index by index the same sums.
-/
import proofs.«131471_j62929860821405_1_alg».proof.Proof.Gen.ReferenceIdeal.Read
import proofs.«131471_j62929860821405_1_alg».proof.Proof.Spec

noncomputable section

namespace Cert.ReferenceIdeal.RefValue

open Idealize.ShloMosaic Idealize.ShloMosaic.ValueIdx Cert.ReferenceIdeal Cert.ReferenceIdeal.Read

/-- The reduction over a row's 256 squares: entry `r` is the row's sum of squares (the initial value is zero). -/
theorem sumsq_at (x : (⟨S8192x256, .f32⟩ : BufTy).Contents (Elt Ideal)) (r : Fin 8192) :
    val_main_call0_v1 (F := Ideal) x (ix1 r) = ∑ k : Fin 256, x (ix2 r k) * x (ix2 r k) := by
  rw [val_main_call0_v1_apply, val_main_call0_cst_apply, Ideal.ofBits_def, Ideal.ofBits_zero_f32, zero_add]
  refine Finset.sum_congr rfl fun k _ => ?_
  have hi : idx_main_call0_v1 (ix1 r) k = ix2 r k :=
    funext fun a => Fin.ext (by match a with | ⟨0, _⟩ => rfl | ⟨1, _⟩ => rfl)
  rw [hi, val_main_call0_v0_apply, Ideal.mulf_def]

/-- The clamped norm, kept as a column: entry `(r, c)` is row `r`'s clamped Euclidean norm. -/
theorem nrm_at (x : (⟨S8192x256, .f32⟩ : BufTy).Contents (Elt Ideal)) (r : Fin 8192) (c : Fin 1) :
    val_main_v2 (F := Ideal) x (ix2 r c) = Cert.CosGram.nrm x r := by
  have hi : idx_main_call0_v2 (ix2 r c) = ix1 r :=
    funext fun a => Fin.ext (by match a with | ⟨0, _⟩ => rfl)
  rw [val_main_v2_apply, val_main_v0_apply, val_main_call0_v2_apply, hi, sumsq_at, val_main_v1_apply,
    val_main_cst_apply, Ideal.ofBits_def, Ideal.hostUnary_sqrt_def, Ideal.maximumf_def]
  rfl

/-- The division by the broadcast column: entry `(r, k)` is the input's entry over its row's clamped norm. -/
theorem xn_at (x : (⟨S8192x256, .f32⟩ : BufTy).Contents (Elt Ideal)) (r : Fin 8192) (k : Fin 256) :
    val_main_v4 (F := Ideal) x (ix2 r k) = Cert.CosGram.xn x r k := by
  have hi : idx_main_v3 (ix2 r k) = ix2 r (0 : Fin 1) :=
    funext fun a => Fin.ext (by match a with | ⟨0, _⟩ => rfl | ⟨1, _⟩ => rfl)
  rw [val_main_v4_apply, val_main_v3_apply, hi, nrm_at, Ideal.hostDivf_def]
  rfl

/-- So the divided array is the specification's normalised array. -/
theorem xn_eq (x : (⟨S8192x256, .f32⟩ : BufTy).Contents (Elt Ideal)) :
    val_main_v4 (F := Ideal) x = Cert.CosGram.xnArr x := by
  funext i
  obtain ⟨r, k, rfl⟩ : ∃ (r : Fin 8192) (k : Fin 256), i = ix2 r k := ⟨i 0, i 1, eq_ix2 i⟩
  exact xn_at x r k

/-- The squared matrix product: entry `(a, b)` is the square of the inner product of normalised rows `a`, `b`. -/
theorem gram_at (x : (⟨S8192x256, .f32⟩ : BufTy).Contents (Elt Ideal)) (a b : Fin 8192) :
    val_main_v6 (F := Ideal) x (ix2 a b) = Cert.CosGram.gramSq (Cert.CosGram.xnArr x) a b := by
  have hl : ∀ k : Fin 256, lidx_main_v5 (ix2 a b) k = ix2 a k := fun k =>
    funext fun d => Fin.ext (by match d with | ⟨0, _⟩ => rfl | ⟨1, _⟩ => rfl)
  have hr : ∀ k : Fin 256, ridx_main_v5 (ix2 a b) k = ix2 b k := fun k =>
    funext fun d => Fin.ext (by match d with | ⟨0, _⟩ => rfl | ⟨1, _⟩ => rfl)
  rw [val_main_v6_apply, val_main_v5_apply, xn_eq, Ideal.mulf_def]
  simp only [hl, hr]
  rfl

/-- The reduction over all 8192 × 8192 entries: the sum of the squared inner products over all pairs of rows
    (the initial value is zero; the sum over the index set is the double sum over its coordinates). -/
theorem total_at (x : (⟨S8192x256, .f32⟩ : BufTy).Contents (Elt Ideal)) (i : S_.Idx) :
    val_main_v7 (F := Ideal) x i = Cert.CosGram.total (Cert.CosGram.xnArr x) := by
  rw [val_main_v7_apply, val_main_cst_0_apply, Ideal.ofBits_def, Ideal.ofBits_zero_f32, zero_add]
  refine (sum_idx2 _).trans ?_
  exact Finset.sum_congr rfl fun a _ => Finset.sum_congr rfl fun b _ => gram_at x a b

/-- The reference's result, as a function of its argument, is the specification's. -/
theorem ref_eq (x : (⟨S8192x256, .f32⟩ : BufTy).Contents (Elt Ideal)) :
    val_main_v11 (F := Ideal) x = fun _ => Cert.CosGram.G x := by
  funext i
  rw [val_main_v11_apply, val_main_v8_apply, val_main_v10_apply, val_main_v9_apply, total_at,
    val_main_cst_1_apply, val_main_cst_2_apply, val_main_cst_3_apply, val_main_cst_4_apply,
    Ideal.ofBits_def, Ideal.hostDivf_def, Ideal.subf_def, Ideal.subf_def, Ideal.mulf_def]
  rfl

end Cert.ReferenceIdeal.RefValue

end
-- ==== Proof.lean ====
/-
  The certificate of the pairwise-cosine loss kernel against its reference.

  Both programs take an 8192 × 256 array, divide every row by the larger of its Euclidean norm and a fixed
  positive constant, sum the squares of all 8192 × 8192 inner products of the normalised rows to `total`, and return
  `(total − n) / (n·n − n)` with `n = 8192`. The kernel program does it in two grid regions — the row
  normalisation block by block, then the sum of squares tile by tile into a carried 1 × 1 cell — followed by nine
  scalar host operations; the reference in one matrix product and one sum. Over the extended reals the two results
  are the same function of the input: the tile-by-tile sum is a regrouping of a sum in a commutative monoid, so the
  precondition (finite inputs) is never opened.

  The three frames: each kernel program's run is the composition of its two regions' runs (each region's body obligation
  proved once, at any float instance) and the host stretch, read back for the argument array; the reference's is its
  run with the result dropped. The idealization rewrote nothing, so `preserves` is trivial. `algebraic`: the kernel
  program's run with its result named, the reference's run read one operation at a time, both equal to the
  specification `Cert.CosGram.G` of the argument.
-/
import proofs.«131471_j62929860821405_1_alg».proof.Defs
import proofs.«131471_j62929860821405_1_alg».proof.Proof.Gen.Kernel
import proofs.«131471_j62929860821405_1_alg».proof.Proof.Gen.KernelIdeal
import proofs.«131471_j62929860821405_1_alg».proof.Proof.Gen.ReferenceIdeal
import proofs.«131471_j62929860821405_1_alg».proof.Proof.Gen.Pre_finite_inputs
import proofs.«131471_j62929860821405_1_alg».proof.Proof.Gen.ReferenceIdeal.Run
import proofs.«131471_j62929860821405_1_alg».proof.Proof.Gen.ReferenceIdeal.Read
import proofs.«131471_j62929860821405_1_alg».proof.Proof.KB.Final
import proofs.«131471_j62929860821405_1_alg».proof.Proof.KI.Final
import proofs.«131471_j62929860821405_1_alg».proof.Proof.KI.Bridge
import proofs.«131471_j62929860821405_1_alg».proof.Proof.RefSide
import Idealize.ShloMosaic.Adequacy
import Idealize.ShloMosaic.Init

noncomputable section

namespace Cert.Proof

open Idealize.ShloMosaic Idealize.SL.Sem

/-- The word-level kernel program runs and leaves its argument as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification of the argument in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.CosGram.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Hand.result_eq m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.ref_eq, hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
